-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S524288 : Shape := ⟨1, ![524288]⟩
abbrev S128x128 : Shape := ⟨2, ![128, 128]⟩
abbrev S128 : Shape := ⟨1, ![128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : IVec S32x2048 32) (main_arg1 : IVec S524288 32) (main_arg2 : IVec S524288 32) (main_arg3 : IVec S524288 32) (main_arg4 : IVec S524288 32) (main_arg5 : IVec S524288 32) (main_arg6 : FVec F S128x128 .f32) (main_arg7 : FVec F S128 .f32) : IVec S_ 1 :=
  let main_v0 : FVec F S128x128 .f32 := Host.absf main_arg6
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128 .f32 := Host.absf main_arg7
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S32x2048 : Shape := ⟨2, ![32, 2048]⟩
abbrev S524288 : Shape := ⟨1, ![524288]⟩
abbrev S128x128 : Shape := ⟨2, ![128, 128]⟩
abbrev S128 : Shape := ⟨1, ![128]⟩
abbrev S_ : Shape := ⟨0, ![]⟩
abbrev S65536 : Shape := ⟨1, ![65536]⟩
abbrev S524288x1 : Shape := ⟨2, ![524288, 1]⟩
abbrev S65536x1 : Shape := ⟨2, ![65536, 1]⟩
abbrev S1x128 : Shape := ⟨2, ![1, 128]⟩
abbrev S65536x128 : Shape := ⟨2, ![65536, 128]⟩
abbrev S8192x1 : Shape := ⟨2, ![8192, 1]⟩
abbrev S8192x128 : Shape := ⟨2, ![8192, 128]⟩
abbrev S32x2048x128 : Shape := ⟨3, ![32, 2048, 128]⟩

abbrev nBuf : Space → Nat
  | .hbm => 39
  | .vmem => 5
  | .smem => 0
  | _ => 0

abbrev bufTy : (tb : Table) → Fin (tcTables nBuf tb) → BufTy
  | .hbm, ⟨0, _⟩ => ⟨S32x2048, .i32⟩
  | .hbm, ⟨1, _⟩ => ⟨S524288, .i32⟩
  | .hbm, ⟨2, _⟩ => ⟨S524288, .i32⟩
  | .hbm, ⟨3, _⟩ => ⟨S524288, .i32⟩
  | .hbm, ⟨4, _⟩ => ⟨S524288, .i32⟩
  | .hbm, ⟨5, _⟩ => ⟨S524288, .i32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S65536, .f32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S_, .f32⟩
  | .hbm, ⟨22, _⟩ => ⟨S524288, .f32⟩
  | .hbm, ⟨23, _⟩ => ⟨S65536, .f32⟩
  | .hbm, ⟨24, _⟩ => ⟨S_, .i32⟩
  | .hbm, ⟨25, _⟩ => ⟨S524288, .i32⟩
  | .hbm, ⟨26, _⟩ => ⟨S524288, .i1⟩
  | .hbm, ⟨27, _⟩ => ⟨S_, .i32⟩
  | .hbm, ⟨28, _⟩ => ⟨S524288, .i32⟩
  | .hbm, ⟨29, _⟩ => ⟨S524288, .i32⟩
  | .hbm, ⟨30, _⟩ => ⟨S524288, .i32⟩
  | .hbm, ⟨31, _⟩ => ⟨S524288x1, .i32⟩
  | .hbm, ⟨32, _⟩ => ⟨S_, .f32⟩
  | .hbm, ⟨33, _⟩ => ⟨S524288, .f32⟩
  | .hbm, ⟨34, _⟩ => ⟨S65536, .f32⟩
  | .hbm, ⟨35, _⟩ => ⟨S65536x1, .f32⟩
  | .hbm, ⟨36, _⟩ => ⟨S1x128, .f32⟩
  | .hbm, ⟨37, _⟩ => ⟨S65536x128, .f32⟩
  | .hbm, ⟨38, _⟩ => ⟨S32x2048x128, .f32⟩
  | .local _ .vmem, ⟨0, _⟩ => ⟨S8192x1, .f32⟩
  | .local _ .vmem, ⟨1, _⟩ => ⟨S8192x1, .f32⟩
  | .local _ .vmem, ⟨2, _⟩ => ⟨S1x128, .f32⟩
  | .local _ .vmem, ⟨3, _⟩ => ⟨S8192x128, .f32⟩
  | .local _ .vmem, ⟨4, _⟩ => ⟨S8192x128, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S128x128_S128_d1 : S128x128.ReducesTo [1] S128
  h_S_ : 0 < S_.numel
  bcast_S_S65536 : S_.BroadcastsInDim S65536 (![] : Fin 0 → Fin S65536.rank)
  bcast_S_S524288 : S_.BroadcastsInDim S524288 (![] : Fin 0 → Fin S524288.rank)
  bcast_S524288_S524288x1_0 : S524288.BroadcastsInDim S524288x1 (![0] : Fin 1 → Fin S524288x1.rank)
  shapeCasts_S65536_S65536x1 : S65536.ShapeCasts S65536x1
  shapeCasts_S128_S1x128 : S128.ShapeCasts S1x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8192x1_S8192x128 : S8192x1.Broadcasts S8192x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  shapeCasts_S65536x128_S32x2048x128 : S65536x128.ShapeCasts S32x2048x128
  scatter_S65536_S524288x1_S524288_n_0_0_1_wf : ScatterDims.WF S65536 S524288x1 S524288 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S65536x1.size a
  hwx0_0 : ∀ i : grid0.Coords, EltTy.bits .f32 = 32 ∨ (Rect.block (s := S65536x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .f32 = 32 ∨ (Rect.block (s := S65536x128) S8192x128.size (cc0_transform_2 i) (hinb0_2 i)).WholeWords (EltTy.packing .f32)

variable [Facts₀]

def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf

abbrev win0_0 : Pipeline.Window sig grid0 :=
  Pipeline.Window.ofSpec (Memref.whole main_v19) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048 : Shape := ⟨2, ![32, 2048]⟩
abbrev S524288 : Shape := ⟨1, ![524288]⟩
abbrev S128x128 : Shape := ⟨2, ![128, 128]⟩
abbrev S128 : Shape := ⟨1, ![128]⟩
abbrev S_ : Shape := ⟨0, ![]⟩
abbrev S524288x128 : Shape := ⟨2, ![524288, 128]⟩
abbrev S1x128 : Shape := ⟨2, ![1, 128]⟩
abbrev S65536x128 : Shape := ⟨2, ![65536, 128]⟩
abbrev S524288x1 : Shape := ⟨2, ![524288, 1]⟩
abbrev S32x2048x128 : Shape := ⟨3, ![32, 2048, 128]⟩

abbrev nBuf : Space → Nat
  | .hbm => 39
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S524288, .i32⟩
  | .hbm, ⟨2, _⟩ => ⟨S524288, .i32⟩
  | .hbm, ⟨3, _⟩ => ⟨S524288, .i32⟩
  | .hbm, ⟨4, _⟩ => ⟨S524288, .i32⟩
  | .hbm, ⟨5, _⟩ => ⟨S524288, .i32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S524288x128, .f32⟩
  | .hbm, ⟨10, _⟩ => ⟨S128x128, .f32⟩
  | .hbm, ⟨11, _⟩ => ⟨S524288x128, .f32⟩
  | .hbm, ⟨12, _⟩ => ⟨S1x128, .f32⟩
  | .hbm, ⟨13, _⟩ => ⟨S524288x128, .f32⟩
  | .hbm, ⟨14, _⟩ => ⟨S524288x128, .f32⟩
  | .hbm, ⟨15, _⟩ => ⟨S_, .f32⟩
  | .hbm, ⟨16, _⟩ => ⟨S65536x128, .f32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S65536x128, .f32⟩
  | .hbm, ⟨26, _⟩ => ⟨S_, .i32⟩
  | .hbm, ⟨27, _⟩ => ⟨S524288, .i32⟩
  | .hbm, ⟨28, _⟩ => ⟨S524288, .i1⟩
  | .hbm, ⟨29, _⟩ => ⟨S_, .i32⟩
  | .hbm, ⟨30, _⟩ => ⟨S524288, .i32⟩
  | .hbm, ⟨31, _⟩ => ⟨S524288, .i32⟩
  | .hbm, ⟨32, _⟩ => ⟨S524288, .i32⟩
  | .hbm, ⟨33, _⟩ => ⟨S524288x1, .i32⟩
  | .hbm, ⟨34, _⟩ => ⟨S65536x128, .f32⟩
  | .hbm, ⟨35, _⟩ => ⟨S_, .f32⟩
  | .hbm, ⟨36, _⟩ => ⟨S65536x128, .f32⟩
  | .hbm, ⟨37, _⟩ => ⟨S65536x128, .f32⟩
  | .hbm, ⟨38, _⟩ => ⟨S32x2048x128, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]

class Facts₀ : Prop where
  bcast_S_S524288x128 : S_.BroadcastsInDim S524288x128 (![] : Fin 0 → Fin S524288x128.rank)
  transposes_S128x128_S128x128_1_0 : S128x128.Transposes [1, 0] S128x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S65536x128 : S_.BroadcastsInDim S65536x128 (![] : Fin 0 → Fin S65536x128.rank)
  bcast_S_S524288 : S_.BroadcastsInDim S524288 (![] : Fin 0 → Fin S524288.rank)
  bcast_S524288_S524288x1_0 : S524288.BroadcastsInDim S524288x1 (![0] : Fin 1 → Fin S524288x1.rank)
  shapeCasts_S65536x128_S32x2048x128 : S65536x128.ShapeCasts S32x2048x128
  dot_S524288x128_S128x128_S524288x128_1_0_0_1_n_n_wf : DotDims.WF S524288x128 S128x128 S524288x128 [1] [0] [0] [1] [] []
  scatter_S65536x128_S524288x1_S524288x128_1_0_0_1_wf : ScatterDims.WF S65536x128 S524288x1 S524288x128 [1] [0] [0] 1

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf

class Facts : Prop extends Facts₀ where

variable [Facts]
-- ==== Proof.KernelHost.lean ====
/-
  What the region's two input arrays hold when the region starts: the degree column is a reshape of ones scattered
  onto the tail slots and then onto the head slots; the row is a reshape of the weight matrix summed along its
  second axis plus the bias.
-/
import proofs.«105156_j9234179687652_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.Lib.Tactic

noncomputable section

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- An index list as both programs normalise it before scattering: a negative word is moved up by the
    number of slots, and the list becomes a column of one-word index vectors. -/
def slotIndex (x : IVec S524288 32) : IVec S524288x1 32 :=
  broadcastInDim S524288x1 ![0] bcast_S524288_S524288x1_0
    (select (cmpi .slt x (broadcastInDim S524288 ![] bcast_S_S524288 (constantI S_ 32 0#32)))
      (addi x (broadcastInDim S524288 ![] bcast_S_S524288 (constantI S_ 32 65536#32))) x)

set_option maxHeartbeats 4000000 in
/-- The degree column the region reads: ones scattered onto the tail slots, then onto the head slots. -/
theorem V_degree (c : Dev nD) : (V m c main_v19 : S65536x1.Idx → EReal)
    = shapeCast S65536x1 (Host.scatterAdd scatter_S65536_S524288x1_S524288_n_0_0_1
        (Host.scatterAdd scatter_S65536_S524288x1_S524288_n_0_0_1
          (broadcastInDim S65536 ![] bcast_S_S65536 (constant (F := Ideal) S_ .f32 0x00000000#32))
          (slotIndex (m ((c.tc : Thread nD τ).loc main_arg3)))
          (broadcastInDim S524288 ![] bcast_S_S524288 (constant (F := Ideal) S_ .f32 0x3F800000#32)))
        (slotIndex (m ((c.tc : Thread nD τ).loc main_arg1)))
        (broadcastInDim S524288 ![] bcast_S_S524288 (constant (F := Ideal) S_ .f32 0x3F800000#32)))
      shapeCasts_S65536_S65536x1 := by
  show StableHlo.after hostOps0 (fun b => m (c, b)) (Proc.devRef .tc main_v19) = _
  after_results
  rfl

set_option maxHeartbeats 4000000 in
/-- The row the region reads: the weight matrix summed along its second axis, plus the bias. -/
theorem V_row (c : Dev nD) : (V m c main_v20 : S1x128.Idx → EReal)
    = shapeCast S1x128 (addf (Host.reduceAdd (m ((c.tc : Thread nD τ).loc main_arg6)) (constant (F := Ideal) S_ .f32 0x00000000#32)
        reducesTo_S128x128_S128_d1 h_S_) (m ((c.tc : Thread nD τ).loc main_arg7))) shapeCasts_S128_S1x128 := by
  show StableHlo.after hostOps0 (fun b => m (c, b)) (Proc.devRef .tc main_v20) = _
  after_results
  rfl

end Cert.KernelIdeal.Region

end
-- ==== Proof.LibScatterIdx.lean ====
/-
  An accumulating scatter read at an index, generic in the shapes and the dimension numbers.

  Update index `j` lands on operand index `i` exactly when, on every operand axis, the start read off the index array
  plus the window coordinate is `i`'s coordinate (`resultIdx?_eq_some_iff`); so at the ideal values the host's
  accumulating scatter at `i` is the operand's entry plus the sum, over ALL update indices, of the update where it
  lands on `i` and zero elsewhere (`hostScatterAdd_apply`).  Beside them: a sum over a rank-one index set as a sum
  over its coordinate, and a vector cast to one column read at an entry.
-/
import Idealize.ShloMosaic.PureOps.Ideal
import Idealize.ShloMosaic.PureOps.Ideal.Laws
import Idealize.ShloMosaic.Lib.ValueIdx
import Idealize.ShloMosaic.Lib.Pipeline.Value

noncomputable section

namespace ScatterIdx

open Idealize.ShloMosaic Idealize.ShloMosaic.ValueIdx

/-- Update index `j` lands on `i` iff on every axis start plus window coordinate is `i`'s coordinate: inside the operand
    the landing index is that sum, outside it the update is dropped. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro he a
      have h1 := congrFun (Option.some.inj he) a
      have h2 := h a
      rw [← h1]
      show _ = ((d.start j idx a + (d.window j a : Int)).toNat : Int)
      omega
    · intro he
      refine congrArg some (funext fun a => Fin.ext ?_)
      show (d.start j idx a + (d.window j a : Int)).toNat = (i a).val
      have := he a
      omega
  · constructor
    · intro he; cases he
    · intro he
      exact absurd (fun a => by
        have := he a
        have hlt := (i a).isLt
        constructor <;> omega) h

/-- The host's accumulating scatter at `i`: the operand's entry plus, over every update index, the update where it lands on
    `i`. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j, if d.resultIdx? j idx = some i then upd j else 0 := by
  unfold Ideal.hostScatterAdd
  rw [Finset.sum_filter]

/-- A rank-one index is its coordinate. -/
def idxEquiv1 (n : Nat) : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) :=
  (Equiv.sum_comp (idxEquiv1 n).symm f).symm

/-- A vector cast to one column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end ScatterIdx

end
-- ==== Proof.ScatterCount.lean ====
/-
  Where an accumulating scatter lands.  An update index `j` of a scatter lands on the operand index whose coordinates
  are the start read (signed, unclamped) off the index array plus the window coordinate, when that lies inside the
  operand.  For the two scatters of this problem — scalars onto a vector of 65536 slots, rows of 128 onto 65536 × 128 —
  fact `f` lands on slot `s` exactly when its index word is `s`, and a row's column is kept.  Hence the vector scatter
  of ones adds to slot `s` the number of facts landing there (its degree), and the row scatter of one common row `r`
  adds `degree · r[h]` at `(s, h)`.
-/
import Idealize.ShloMosaic.PureOps.Ideal
import Idealize.ShloMosaic.PureOps.Ideal.Laws
import Idealize.ShloMosaic.Lib.ValueIdx
import proofs.«105156_j9234179687652_1_alg».proof.Proof.LibScatterIdx

noncomputable section

namespace Cert.Degree

open Idealize.ShloMosaic Idealize.ShloMosaic.ValueIdx ScatterIdx

abbrev Slots : Shape := ⟨1, ![65536]⟩
abbrev SlotRows : Shape := ⟨2, ![65536, 128]⟩
abbrev FactIdx : Shape := ⟨2, ![524288, 1]⟩
abbrev FactVec : Shape := ⟨1, ![524288]⟩
abbrev FactRows : Shape := ⟨2, ![524288, 128]⟩

def dCount : ScatterDims Slots FactIdx FactVec where
  updateWindowDims := []
  insertedWindowDims := [0]
  scatterDimsToOperandDims := [0]
  indexVectorDim := 1

def dRows : ScatterDims SlotRows FactIdx FactRows where
  updateWindowDims := [1]
  insertedWindowDims := [0]
  scatterDimsToOperandDims := [0]
  indexVectorDim := 1

theorem dRows_siIdx (j : FactRows.Idx) (c : Fin dRows.scatterDimsToOperandDims.length) :
    dRows.siIdx j c = ix2 (j 0) 0 := by
  funext b
  match b with
  | ⟨0, _⟩ => rfl
  | ⟨1, _⟩ => exact Fin.ext (by have := c.isLt; simp [dRows] at this; simp [ScatterDims.siIdx]; omega)

theorem dCount_siIdx (j : FactVec.Idx) (c : Fin dCount.scatterDimsToOperandDims.length) :
    dCount.siIdx j c = ix2 (j 0) 0 := by
  funext b
  match b with
  | ⟨0, _⟩ => rfl
  | ⟨1, _⟩ => exact Fin.ext (by have := c.isLt; simp [dCount] at this; simp [ScatterDims.siIdx]; omega)

theorem dRows_start0 (j : FactRows.Idx) (idx : IVec FactIdx 32) :
    dRows.start j idx 0 = (idx (ix2 (j 0) 0)).toInt := by
  unfold ScatterDims.start
  rw [dif_pos (show (0 : Fin SlotRows.rank) ∈ dRows.scatterDimsToOperandDims by decide), dRows_siIdx]
  rfl

theorem dRows_start1 (j : FactRows.Idx) (idx : IVec FactIdx 32) : dRows.start j idx 1 = 0 := by
  unfold ScatterDims.start
  rw [dif_neg (show ¬(1 : Fin SlotRows.rank) ∈ dRows.scatterDimsToOperandDims by decide)]

theorem dRows_window0 (j : FactRows.Idx) : dRows.window j 0 = 0 := by
  unfold ScatterDims.window
  rw [dif_neg (show ¬(0 : Fin SlotRows.rank) ∈ dRows.sKept by decide)]

theorem dRows_window1 (j : FactRows.Idx) : dRows.window j 1 = (j 1).val := by
  unfold ScatterDims.window
  rw [dif_pos (show (1 : Fin SlotRows.rank) ∈ dRows.sKept by decide)]
  rfl

theorem dCount_start0 (j : FactVec.Idx) (idx : IVec FactIdx 32) :
    dCount.start j idx 0 = (idx (ix2 (j 0) 0)).toInt := by
  unfold ScatterDims.start
  rw [dif_pos (show (0 : Fin Slots.rank) ∈ dCount.scatterDimsToOperandDims by decide), dCount_siIdx]
  rfl

theorem dCount_window0 (j : FactVec.Idx) : dCount.window j 0 = 0 := by
  unfold ScatterDims.window
  rw [dif_neg (show ¬(0 : Fin Slots.rank) ∈ dCount.sKept by decide)]

/-- Fact `f` lands on slot `s`: its (signed, unclamped) index word is `s`. -/
def lands (idx : IVec FactIdx 32) (f : Fin 524288) (s : Fin 65536) : Prop :=
  (idx (ix2 f 0)).toInt = (s.val : Int)

instance (idx : IVec FactIdx 32) (f : Fin 524288) (s : Fin 65536) : Decidable (lands idx f s) := by
  unfold lands; infer_instance

/-- How many facts land on slot `s`. -/
def degree (idx : IVec FactIdx 32) (s : Fin 65536) : Nat :=
  (Finset.univ.filter fun f : Fin 524288 => lands idx f s).card

theorem dRows_lands (a : Fin 524288) (b : Fin 128) (idx : IVec FactIdx 32) (s : Fin 65536) (h : Fin 128) :
    dRows.resultIdx? (ix2 a b) idx = some (ix2 s h) ↔ lands idx a s ∧ b = h := by
  rw [resultIdx?_eq_some_iff, Fin.forall_fin_two, dRows_start0, dRows_start1, dRows_window0, dRows_window1]
  show (idx (ix2 a 0)).toInt + ((0 : ℕ) : ℤ) = (s.val : ℤ) ∧ (0 : ℤ) + ((b.val : ℕ) : ℤ) = (h.val : ℤ) ↔ _
  unfold lands
  constructor
  · rintro ⟨h0, h1⟩
    exact ⟨by omega, Fin.ext (by omega)⟩
  · rintro ⟨h0, h1⟩
    exact ⟨by omega, by rw [h1]; omega⟩

theorem dCount_lands (a : Fin 524288) (idx : IVec FactIdx 32) (s : Fin 65536) :
    dCount.resultIdx? (ix1 a) idx = some (ix1 s) ↔ lands idx a s := by
  rw [resultIdx?_eq_some_iff, Fin.forall_fin_one, dCount_start0, dCount_window0]
  show (idx (ix2 a 0)).toInt + ((0 : ℕ) : ℤ) = (s.val : ℤ) ↔ _
  unfold lands
  constructor <;> intro h0 <;> omega

theorem sum_lands (idx : IVec FactIdx 32) (s : Fin 65536) (v : EReal) :
    (∑ a : Fin 524288, if lands idx a s then v else 0) = (degree idx s : EReal) * v := by
  rw [← Finset.sum_filter, Finset.sum_const, EReal.nsmul_eq_mul]
  rfl

theorem scatter_rows_apply (x : SlotRows.Idx → EReal) (idx : IVec FactIdx 32) (r : Fin 128 → EReal)
    (upd : FactRows.Idx → EReal) (hupd : ∀ a b, upd (ix2 a b) = r b) (s : Fin 65536) (h : Fin 128) :
    Ideal.hostScatterAdd dRows x idx upd (ix2 s h) = x (ix2 s h) + (degree idx s : EReal) * r h := by
  rw [hostScatterAdd_apply]
  refine congrArg (x (ix2 s h) + ·) ?_
  rw [sum_idx2, ← sum_lands]
  refine Finset.sum_congr rfl fun a _ => ?_
  simp only [dRows_lands, hupd]
  by_cases hl : lands idx a s
  · simp [hl]
  · simp [hl]

theorem scatter_count_apply (x : Slots.Idx → EReal) (idx : IVec FactIdx 32)
    (upd : FactVec.Idx → EReal) (hupd : ∀ a, upd (ix1 a) = 1) (s : Fin 65536) :
    Ideal.hostScatterAdd dCount x idx upd (ix1 s) = x (ix1 s) + (degree idx s : EReal) := by
  rw [hostScatterAdd_apply]
  refine congrArg (x (ix1 s) + ·) ?_
  rw [sum_idx1, ← mul_one ((degree idx s : ℕ) : EReal), ← sum_lands]
  refine Finset.sum_congr rfl fun a _ => ?_
  simp only [dCount_lands, hupd]

-- From here on a degree is a number to reason about, never a set to enumerate.
attribute [irreducible] degree

end Cert.Degree

end
-- ==== Proof.SlotEmbedding.lean ====
/-
  The function both programs compute: at slot `s` and feature `h`, the positive part of
  (tail degree of `s` + head degree of `s`) times the linear layer's output `h` on an all-ones row.  Adding a row
  `nT` times and then `nH` times is multiplying it by `nT + nH`, on the extended reals too, since both counts are
  non-negative.  The two scatters are restated in the programs' own spelling of the operation.
-/
import proofs.«105156_j9234179687652_1_alg».proof.Proof.ScatterCount

noncomputable section

namespace Cert.Degree

open Idealize.ShloMosaic Idealize.ShloMosaic.ValueIdx

/-- One output of the linear layer applied to an all-ones row: the weight matrix's row sum plus the bias. -/
def onesRow (W : (⟨2, ![128, 128]⟩ : Shape).Idx → EReal) (b : (⟨1, ![128]⟩ : Shape).Idx → EReal) (h : Fin 128) : EReal :=
  (∑ k : Fin 128, W (ix2 h k)) + b (ix1 h)

/-- The slot embeddings: at slot `s` and feature `h`, the positive part of (tail degree + head degree) times the
    all-ones row's output `h`. -/
def slotEmb (idxT idxH : IVec FactIdx 32) (W : (⟨2, ![128, 128]⟩ : Shape).Idx → EReal)
    (b : (⟨1, ![128]⟩ : Shape).Idx → EReal) : SlotRows.Idx → EReal :=
  fun i => max (((degree idxT (i 0) : EReal) + (degree idxH (i 0) : EReal)) * onesRow W b (i 1)) 0

theorem slotEmb_apply (idxT idxH : IVec FactIdx 32) (W : (⟨2, ![128, 128]⟩ : Shape).Idx → EReal)
    (b : (⟨1, ![128]⟩ : Shape).Idx → EReal) (s : Fin 65536) (h : Fin 128) :
    slotEmb idxT idxH W b (ix2 s h)
      = max (((degree idxT s : EReal) + (degree idxH s : EReal)) * onesRow W b h) 0 := rfl

/-- Adding one row `nT` times and then `nH` times is multiplying it by `nT + nH`: multiplication distributes over a
    sum of two non-negative extended reals whatever the other factor is. -/
theorem degree_distrib (nT nH : ℕ) (v : EReal) :
    (0 + (nT : EReal) * v) + (nH : EReal) * v = ((nT : EReal) + (nH : EReal)) * v := by
  rw [zero_add, EReal.right_distrib_of_nonneg (Nat.cast_nonneg' _) (Nat.cast_nonneg' _)]

/-- The host's accumulating scatter of ones into the slot vector, in the program's spelling. -/
theorem host_scatter_count_apply (d : ScatterDims Slots FactIdx FactVec) (hd : d = dCount)
    (x : FVec Ideal Slots .f32) (idx : IVec FactIdx 32) (upd : FVec Ideal FactVec .f32)
    (hupd : ∀ a, upd (ix1 a) = (1 : EReal)) (s : Fin 65536) :
    Host.scatterAdd d x idx upd (ix1 s) = x (ix1 s) + (degree idx s : EReal) := by
  subst hd
  exact scatter_count_apply x idx upd hupd s

/-- The host's accumulating scatter of rows into the slot rows, in the program's spelling. -/
theorem host_scatter_rows_apply (d : ScatterDims SlotRows FactIdx FactRows) (hd : d = dRows)
    (x : FVec Ideal SlotRows .f32) (idx : IVec FactIdx 32) (r : Fin 128 → EReal) (upd : FVec Ideal FactRows .f32)
    (hupd : ∀ a b, upd (ix2 a b) = r b) (s : Fin 65536) (h : Fin 128) :
    Host.scatterAdd d x idx upd (ix2 s h) = x (ix2 s h) + (degree idx s : EReal) * r h := by
  subst hd
  exact scatter_rows_apply x idx r upd hupd s h

end Cert.Degree

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.KernelRegion.lean ====
/-
  The region's input arrays read at an entry: the degree column at slot `s` is `0 + tail degree + head degree`, the
  row at feature `q` is `Σ_k W[q, k] + b[q]`.
-/
import proofs.«105156_j9234179687652_1_alg».proof.Proof.KernelHost
import proofs.«105156_j9234179687652_1_alg».proof.Proof.SlotEmbedding
import proofs.«105156_j9234179687652_1_alg».proof.Proof.LibRowOps

noncomputable section

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx ScatterIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The two index lists as the scatters read them. -/
abbrev tailIdx (c : Dev nD) : IVec S524288x1 32 := slotIndex (m ((c.tc : Thread nD τ).loc main_arg3))
abbrev headIdx (c : Dev nD) : IVec S524288x1 32 := slotIndex (m ((c.tc : Thread nD τ).loc main_arg1))

/-- The degree column at slot `s`: zero, plus the tail degree, plus the head degree. -/
theorem degree_apply (c : Dev nD) (s : Fin 65536) :
    (V m c main_v19 : S65536x1.Idx → EReal) (ix2 s (0 : Fin 1))
      = ((0 : EReal) + (Degree.degree (tailIdx m c) s : EReal)) + (Degree.degree (headIdx m c) s : EReal) := by
  rw [V_degree]
  rw [shapeCast_a_a1_apply (a := 65536)]
  have hone : ∀ a : Fin 524288, (broadcastInDim S524288 ![] bcast_S_S524288 (constant (F := Ideal) S_ .f32 0x3F800000#32)) (ix1 a) = (1 : EReal) :=
    fun a => Ideal.ofBits_one_f32
  have hzero : (broadcastInDim S65536 ![] bcast_S_S65536 (constant (F := Ideal) S_ .f32 0x00000000#32)) (ix1 s) = (0 : EReal) :=
    Ideal.ofBits_zero_f32
  rw [Degree.host_scatter_count_apply scatter_S65536_S524288x1_S524288_n_0_0_1 rfl _ _ _ hone,
    Degree.host_scatter_count_apply scatter_S65536_S524288x1_S524288_n_0_0_1 rfl _ _ _ hone, hzero]

/-- The row at feature `q`: the weight matrix's row `q` summed, plus the bias. -/
theorem row_apply (c : Dev nD) (q : Fin 128) :
    (V m c main_v20 : S1x128.Idx → EReal) (ix2 (0 : Fin 1) q)
      = Degree.onesRow (m ((c.tc : Thread nD τ).loc main_arg6)) (m ((c.tc : Thread nD τ).loc main_arg7)) q := by
  rw [V_row]
  rw [shapeCast_a_1a_apply (a := 128), addf_apply]
  unfold Degree.onesRow
  refine congrArg (· + _) ?_
  simp only [Host.reduceAdd, Ideal.hostReduceAdd_def]
  rw [Ideal.hostReduceAdd_single _ (by decide : S128x128.Reduces [1] S128)]
  show Ideal.ofBits .f32 0x00000000#32 + (∑ k : Fin 128, _) = ∑ k : Fin 128, _
  rw [Ideal.ofBits_zero_f32, zero_add]
  refine Finset.sum_congr rfl fun k _ => congrArg _ (funext fun a => Fin.ext ?_)
  match a with
  | ⟨0, _⟩ => rfl
  | ⟨1, _⟩ => rfl

end Cert.KernelIdeal.Region

end
-- ==== Proof.KernelBlock.lean ====
/-
  The body's one store, entry by entry: a column broadcast across the columns times a row broadcast down the rows,
  then the positive part; with the column a slot's degrees and the row the all-ones row's output it is the slot
  embedding at that slot and feature.
-/
import proofs.«105156_j9234179687652_1_alg».proof.Proof.KernelRegion

noncomputable section

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The body's one store at `(p, q)`: the positive part of the degree column's entry `p` times the row's entry `q`. -/
theorem payload_apply (x0 : Vec Ideal S8192x1 .f32) (x1 : Vec Ideal S1x128 .f32) (p : Fin 8192) (q : Fin 128) :
    k0_pay1 x0 x1 (ix2 p q) = max (x0 (ix2 p (0 : Fin 1)) * x1 (ix2 (0 : Fin 1) q)) (0 : EReal) := by
  unfold k0_pay1
  simp only [shapeCast_self]
  rw [maximumf_apply, mulf_apply, RowOps.broadcastTo_a1_ab_apply, broadcastTo_1b_ab_apply, broadcast_apply]
  exact congrArg (max _) Ideal.ofBits_zero_f32

/-- The same entry once the column's entry is a slot's degrees and the row's entry the all-ones row's output. -/
theorem block_apply (x0 : Vec Ideal S8192x1 .f32) (x1 : Vec Ideal S1x128 .f32) (idxT idxH : IVec S524288x1 32)
    (W : S128x128.Idx → EReal) (b : S128.Idx → EReal) (p : Fin 8192) (q : Fin 128) (s : Fin 65536)
    (h0 : x0 (ix2 p (0 : Fin 1)) = ((0 : EReal) + (Degree.degree idxT s : EReal)) + (Degree.degree idxH s : EReal))
    (h1 : x1 (ix2 (0 : Fin 1) q) = Degree.onesRow W b q) :
    k0_pay1 x0 x1 (ix2 p q) = Degree.slotEmb idxT idxH W b (ix2 s q) := by
  rw [payload_apply, h0, h1, Degree.slotEmb_apply, zero_add]

end Cert.KernelIdeal.Region

end
-- ==== Proof.KernelFlush.lean ====
/-
  What grid point `t` writes back: rows `8192 t … 8192 t + 8191` of the slot embeddings.  Point `t` reads block `t` of
  the degree column and the whole row, so entry `(p, q)` of its block is the embedding at slot `8192 t + p`, feature `q`.
-/
import proofs.«105156_j9234179687652_1_alg».proof.Proof.KernelBlock

noncomputable section

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result array of the region, as one function of the program's arguments. -/
abbrev emb (c : Dev nD) : S65536x128.Idx → EReal :=
  Degree.slotEmb (tailIdx m c) (headIdx m c) (m ((c.tc : Thread nD τ).loc main_arg6)) (m ((c.tc : Thread nD τ).loc main_arg7))

/-- The printed index maps over the eight grid points: point `t` reads block `t` of the degree column, the one row,
    and writes block `t` of the result's rows. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the slot embeddings. -/
theorem flushed_eq (c : Dev nD) (t : Fin cfg0.N) :
    (dats m 0 c).flushed 2 t = ((cfg0.win 2).blk t).view.read (Elt Ideal) (emb m c) := by
  show (cfg0.win 2).cut (grid0.coords t) ((dats m 0 c).after 2 t) = _
  rw [after0_2]
  unfold out0_2
  rw [View.canon_unit_zero hz]
  simp only [View.ld_unit_zero (S := S8192x1) hz, View.ld_unit_zero (S := S1x128) hz]
  obtain ⟨e0, e1, e2, e3, e4, e5⟩ := idx_facts t
  have hN : cfg0.N = 8 := N_0
  have ht : t.val < 8 := hN ▸ t.isLt
  funext j
  obtain ⟨p, q, rfl⟩ : ∃ (p : Fin 8192) (q : Fin 128), j = ix2 p q := ⟨j 0, j 1, eq_ix2 j⟩
  have hs : t.val * 8192 + p.val < 65536 := by have := p.isLt; omega
  rw [View.read_apply]
  have hemb : ((cfg0.win 2).blk t).view.emb (ix2 p q) = ix2 (⟨t.val * 8192 + p.val, hs⟩ : Fin 65536) q := by
    funext a; apply Fin.ext
    match a with
    | ⟨0, _⟩ => show win0_2.index t (0 : Fin 2) * 8192 + 1 * p.val = t.val * 8192 + p.val; omega
    | ⟨1, _⟩ => show win0_2.index t (1 : Fin 2) * 128 + 1 * q.val = q.val; omega
  rw [hemb]
  refine block_apply (iblk m c 0 t) (iblk m c 1 t) (tailIdx m c) (headIdx m c) (m ((c.tc : Thread nD τ).loc main_arg6))
    (m ((c.tc : Thread nD τ).loc main_arg7)) p q ⟨t.val * 8192 + p.val, hs⟩ ?_ ?_
  · show V m c main_v19 (((cfg0.win 0).blk t).view.emb (ix2 p (0 : Fin 1))) = _
    have h0 : ((cfg0.win 0).blk t).view.emb (ix2 p (0 : Fin 1)) = ix2 (⟨t.val * 8192 + p.val, hs⟩ : Fin 65536) (0 : Fin 1) := by
      funext a; apply Fin.ext
      match a with
      | ⟨0, _⟩ => show win0_0.index t (0 : Fin 2) * 8192 + 1 * p.val = t.val * 8192 + p.val; omega
      | ⟨1, _⟩ => show win0_0.index t (1 : Fin 2) * 1 + 1 * 0 = 0; omega
    rw [h0]
    exact degree_apply m c ⟨t.val * 8192 + p.val, hs⟩
  · show V m c main_v20 (((cfg0.win 1).blk t).view.emb (ix2 (0 : Fin 1) q)) = _
    have h1 : ((cfg0.win 1).blk t).view.emb (ix2 (0 : Fin 1) q) = ix2 (0 : Fin 1) q := by
      funext a; apply Fin.ext
      match a with
      | ⟨0, _⟩ => show win0_1.index t (0 : Fin 2) * 1 + 1 * 0 = 0; omega
      | ⟨1, _⟩ => show win0_1.index t (1 : Fin 2) * 128 + 1 * q.val = q.val; omega
    rw [h1]
    exact row_apply m c q

end Cert.KernelIdeal.Region

end
-- ==== Proof.KernelCover.lean ====
/-
  The eight blocks of 8192 rows tile the 65536 rows: row `r` lies in the block of point `r / 8192`.  So after the
  region the result array is the slot embeddings.
-/
import proofs.«105156_j9234179687652_1_alg».proof.Proof.KernelFlush

noncomputable section

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- An index of the result array is in point `t`'s block iff each coordinate is in the block's range. -/
theorem mem_blk (t : Fin cfg0.N) (i : S65536x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v21).slice (win0_2.rect t)).set ↔ _
  rw [View.set_slice_whole, Rect.mem_set_unit]
  exact Iff.rfl

/-- Every row of the result lies in the block of the point its number divided by the block height names. -/
theorem cover (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  have hN : cfg0.N = 8 := N_0
  have ht : (i 0).val / 8192 < cfg0.N := by omega
  obtain ⟨-, -, -, -, e4, e5⟩ := idx_facts ⟨(i 0).val / 8192, ht⟩
  refine ⟨⟨(i 0).val / 8192, ht⟩, flush0_2 _, ?_⟩
  rw [mem_blk]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    rw [e4]
    show (i 0).val / 8192 * 8192 ≤ (i 0).val ∧ (i 0).val < (i 0).val / 8192 * 8192 + 8192
    omega
  | ⟨1, _⟩ =>
    show win0_2.index ⟨(i 0).val / 8192, ht⟩ (1 : Fin 2) * 128 ≤ (i 1).val
      ∧ (i 1).val < win0_2.index ⟨(i 0).val / 8192, ht⟩ (1 : Fin 2) * 128 + 128
    omega

/-- The result array after the region is the slot embeddings. -/
theorem final (c : Dev nD) : (dats m 0 c).arrAt 2 cfg0.N = emb m c :=
  (dats m 0 c).arrAt_eq_of_cover 2 (emb m c) (fun t _ => flushed_eq m c t) cover

end Cert.KernelIdeal.Region

end
-- ==== Proof.KernelRun.lean ====
/-
  The program's result: the reshape after the region reads the region's result array, so the program ends at the
  slot embeddings reshaped to 32 batches of 2048 entities, its arguments unchanged.
-/
import proofs.«105156_j9234179687652_1_alg».proof.Proof.KernelCover

noncomputable section

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The program's result as one function of its arguments: the slot embeddings, reshaped to batches of entities. -/
def result (x1 x3 : IVec S524288 32) (x6 : S128x128.Idx → EReal) (x7 : S128.Idx → EReal) : S32x2048x128.Idx → EReal :=
  shapeCast S32x2048x128 (Degree.slotEmb (slotIndex x3) (slotIndex x1) x6 x7) shapeCasts_S65536x128_S32x2048x128

/-- The reshape after the region reads the region's result array. -/
theorem tail_eq (c : Dev nD) :
    Pipeline.afterTail₀ cfgs (dats m) 0 (V0 m) [hostOps1] c main_v22
      = result (m ((c.tc : Thread nD τ).loc main_arg1)) (m ((c.tc : Thread nD τ).loc main_arg3))
          (m ((c.tc : Thread nD τ).loc main_arg6)) (m ((c.tc : Thread nD τ).loc main_arg7)) := by
  unfold Pipeline.afterTail₀
  show StableHlo.after hostOps1 _ (Proc.devRef .tc main_v22) = _
  after_results
  exact congrArg (fun X => shapeCast S32x2048x128 X shapeCasts_S65536x128_S32x2048x128)
    ((Pipeline.withArrays_arr spec0 launch0.win.arr_inj c _ _ 2).trans (final m c))

/-- The run, read: the result at `result` of the arguments, the arguments unchanged. -/
theorem run : θ_run defs (onTc (τ := τ) (main (F := Ideal))) ⟨m, fun _ => 0, ρ⟩ fun r => ∀ c : Dev nD,
      r.2.mem ((c.tc : Thread nD τ).loc main_v22)
        = result (m ((c.tc : Thread nD τ).loc main_arg1)) (m ((c.tc : Thread nD τ).loc main_arg3))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v22 (Pipeline.mem_restRefs_of main_v22 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Region

end
-- ==== Proof.RefValue.lean ====
/-
  The reference's side: every fact's value row is the all-ones row's output (a product with ones sums a row of the
  weight matrix), each of its two scatters adds that row once per fact landing on the slot, and the positive part of
  the total is the slot embedding.
-/
import proofs.«105156_j9234179687652_1_alg».proof.Proof.Gen.ReferenceIdeal.Read
import proofs.«105156_j9234179687652_1_alg».proof.Proof.SlotEmbedding
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- Every fact's value row is the linear layer's output on the all-ones row: at `(f, h)` the product of ones with the
    transposed weights sums row `h` of the weight matrix, and the bias is added. -/
theorem factVal_apply (x6 : (⟨S128x128, .f32⟩ : BufTy).Contents (Elt Ideal)) (x7 : (⟨S128, .f32⟩ : BufTy).Contents (Elt Ideal))
    (a : Fin 524288) (b : Fin 128) :
    val_main_v5 (F := Ideal) x6 x7 (ix2 a b) = Degree.onesRow x6 x7 b := by
  rw [val_main_v5_apply, val_main_v2_apply, val_main_v4_apply, val_main_v3_apply]
  unfold Degree.onesRow
  refine congrArg₂ (· + ·) ?_ ?_
  · refine Finset.sum_congr rfl fun k _ => ?_
    rw [val_main_v0_apply, val_main_cst_apply, val_main_v1_apply]
    show Ideal.ofBits .f32 0x3F800000#32 * _ = _
    rw [Ideal.ofBits_one_f32, one_mul]
    exact congrArg x6 (funext fun a' => Fin.ext (by
      match a' with
      | ⟨0, _⟩ => rfl
      | ⟨1, _⟩ => rfl))
  · exact congrArg x7 (funext fun a' => Fin.ext (by
      match a' with
      | ⟨0, _⟩ => rfl))

/-- The reference's array before its last reshape is the slot embeddings: each scatter adds the common row once per fact
    landing on the slot, the two scatters add up to (tail degree + head degree) rows, and the positive part is taken. -/
theorem emb_eq (x1 x3 : (⟨S524288, .i32⟩ : BufTy).Contents (Elt Ideal)) (x6 : (⟨S128x128, .f32⟩ : BufTy).Contents (Elt Ideal))
    (x7 : (⟨S128, .f32⟩ : BufTy).Contents (Elt Ideal)) :
    val_main_v21 (F := Ideal) x1 x3 x6 x7
      = Degree.slotEmb (val_main_v12 (F := Ideal) x3) (val_main_v19 (F := Ideal) x1) x6 x7 := by
  funext i
  obtain ⟨s, h, rfl⟩ : ∃ (s : Fin 65536) (h : Fin 128), i = ix2 s h := ⟨i 0, i 1, eq_ix2 i⟩
  rw [val_main_v21_apply, Degree.slotEmb_apply]
  have hz : val_main_call0_v0 (F := Ideal) (ix2 s h) = (0 : EReal) := Ideal.ofBits_zero_f32
  rw [hz]
  refine congrArg (max · (0 : EReal)) ?_
  unfold val_main_v20 val_main_v13
  simp only [Host.scatterAdd, Ideal.hostScatterAdd_def]
  have hd : scatter_S65536x128_S524288x1_S524288x128_1_0_0_1 = Degree.dRows := rfl
  rw [hd, Degree.scatter_rows_apply _ _ (Degree.onesRow x6 x7) _ (factVal_apply x6 x7),
    Degree.scatter_rows_apply _ _ (Degree.onesRow x6 x7) _ (factVal_apply x6 x7)]
  have h0 : val_main_v6 (F := Ideal) (ix2 s h) = (0 : EReal) := Ideal.ofBits_zero_f32
  rw [h0]
  exact Degree.degree_distrib _ _ _

end Cert.ReferenceIdeal.RefValue

end
-- ==== Proof.lean ====
/-
  Slot embeddings of a knowledge-graph layer: every fact carries the same value row, the linear layer's output on an
  all-ones row, `v[h] = (Σ_k W[h, k]) + b[h]`.  The reference scatters that row onto each fact's tail slot and then
  onto each fact's head slot, `agg[s, h] = (0 + Σ_{tail f = s} v[h]) + Σ_{head f = s} v[h]`, and takes the positive
  part.  The kernel scatters ones instead, `deg[s] = (0 + #{f : tail f = s}) + #{f : head f = s}`, and a tiled
  region computes `max (deg[s] · v[h]) 0` block of rows by block of rows.

  At the extended reals a sum of `n` equal terms is `n · v` and the product distributes over a sum of two
  non-negative factors whatever `v` is, so both are `max ((d_tail[s] + d_head[s]) · v[h]) 0` with no use of
  finiteness.  Both programs normalise the index lists the same way (a negative word moved up by the number of
  slots, an out-of-range word dropped by the scatter), and `d_tail`, `d_head` count exactly the facts whose
  normalised word is the slot.

  The modules: `LibScatterIdx` (an accumulating scatter read at an index, any shapes), `LibRowOps` (layout steps read
  at a row), `ScatterCount` (which facts a scatter lands on a slot; the two scatters as degree counts),
  `SlotEmbedding` (the common function and the distributive step), `KernelHost` / `KernelRegion` / `KernelBlock` / `KernelFlush` / `KernelCover` / `KernelRun`
  (the degree column and the row as the region finds them; the body's store at an entry; block `t` of the result; the
  cover; the run),
  `RefValue` (the reference's array before its last reshape is the same function).
-/
import proofs.«105156_j9234179687652_1_alg».proof.Defs
import proofs.«105156_j9234179687652_1_alg».proof.Proof.Gen.Kernel
import proofs.«105156_j9234179687652_1_alg».proof.Proof.Gen.Kernel.Frame
import proofs.«105156_j9234179687652_1_alg».proof.Proof.Gen.KernelIdeal
import proofs.«105156_j9234179687652_1_alg».proof.Proof.Gen.KernelIdeal.Frame
import proofs.«105156_j9234179687652_1_alg».proof.Proof.Gen.ReferenceIdeal
import proofs.«105156_j9234179687652_1_alg».proof.Proof.Gen.ReferenceIdeal.Run
import proofs.«105156_j9234179687652_1_alg».proof.Proof.Gen.ReferenceIdeal.Read
import proofs.«105156_j9234179687652_1_alg».proof.Proof.Gen.Pre_finite_inputs
import proofs.«105156_j9234179687652_1_alg».proof.Proof.KernelRun
import proofs.«105156_j9234179687652_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Both programs end at the slot embeddings of the shared arguments, reshaped alike. -/
theorem algebraic : Cert.algebraic_KernelIdeal_ReferenceIdeal := by
  intro m ρ m' ρ' _ hagree
  refine ⟨fun c => Cert.KernelIdeal.Region.result
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  obtain ⟨-, e1, -, e3, -, -, e6, e7⟩ := hagree c
  rw [e1, e3, e6, e7, Cert.ReferenceIdeal.Read.val_main_v22_eq]
  unfold Cert.ReferenceIdeal.Read.val_main_v22
  rw [Cert.ReferenceIdeal.RefValue.emb_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
